-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S8x128 : Shape := ⟨2, ![8, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S8x128 : S_.BroadcastsInDim S8x128 (![] : Fin 0 → Fin S8x128.rank)
  reducesTo_S8x128_S_d0_1 : S8x128.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x128 .f32) (main_arg1 : FVec F S8x128 .f32) (main_arg2 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S8x128 .f32 := Host.absf main_arg1
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg2 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  main_v12
-- ==== Kernel.lean ====
abbrev S1000000x128 : Shape := ⟨2, ![1000000, 128]⟩
abbrev S8x128 : Shape := ⟨2, ![8, 128]⟩
abbrev S1000000 : Shape := ⟨1, ![1000000]⟩
abbrev S16384 : Shape := ⟨1, ![16384]⟩
abbrev S16384x128 : Shape := ⟨2, ![16384, 128]⟩
abbrev S4096 : Shape := ⟨1, ![4096]⟩
abbrev S4096x1 : Shape := ⟨2, ![4096, 1]⟩
abbrev S4096x8 : Shape := ⟨2, ![4096, 8]⟩
abbrev S4096x128 : Shape := ⟨2, ![4096, 128]⟩

abbrev nBuf : Space → Nat
  | .hbm => 4
  | .vmem => 7
  | .smem => 0
  | _ => 0

abbrev bufTy : (tb : Table) → Fin (tcTables nBuf tb) → BufTy
  | .hbm, ⟨0, _⟩ => ⟨S1000000x128, .f32⟩
  | .hbm, ⟨1, _⟩ => ⟨S8x128, .f32⟩
  | .hbm, ⟨2, _⟩ => ⟨S1000000, .i32⟩
  | .hbm, ⟨3, _⟩ => ⟨S1000000x128, .f32⟩
  | .local _ .vmem, ⟨0, _⟩ => ⟨S16384, .i32⟩
  | .local _ .vmem, ⟨1, _⟩ => ⟨S16384, .i32⟩
  | .local _ .vmem, ⟨2, _⟩ => ⟨S16384x128, .f32⟩
  | .local _ .vmem, ⟨3, _⟩ => ⟨S16384x128, .f32⟩
  | .local _ .vmem, ⟨4, _⟩ => ⟨S8x128, .f32⟩
  | .local _ .vmem, ⟨5, _⟩ => ⟨S16384x128, .f32⟩
  | .local _ .vmem, ⟨6, _⟩ => ⟨S16384x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![62], ![false]⟩

def k0_mult1 : BitVec 32 :=
  let c0_i32 : BitVec 32 := 0#32
  let c4096_i32 : BitVec 32 := 4096#32
  let v1 : BitVec 32 := Scalar.muli c0_i32 c4096_i32
  v1
def k0_off1 (c0_i32 : BitVec 32) : Fin 1 → Nat :=
  let c4096_i32 : BitVec 32 := 4096#32
  let v1 : BitVec 32 := Scalar.muli c0_i32 c4096_i32
  let v2 : BitVec 32 := v1
  let v3 : Index := Scalar.indexCast v2
  ![v3.toNat]
def k0_off2 (c0_i32 : BitVec 32) : Fin 2 → Nat :=
  let c4096_i32 : BitVec 32 := 4096#32
  let v1 : BitVec 32 := Scalar.muli c0_i32 c4096_i32
  let v2 : BitVec 32 := v1
  let v16 : Index := Scalar.indexCast v2
  let c0_2 : Index := 0#32
  ![v16.toNat, 0]
def k0_mult2 : BitVec 32 :=
  let c1_i32 : BitVec 32 := 1#32
  let c4096_i32_4 : BitVec 32 := 4096#32
  let v21 : BitVec 32 := Scalar.muli c1_i32 c4096_i32_4
  v21
def k0_mult3 : BitVec 32 :=
  let c2_i32 : BitVec 32 := 2#32
  let c4096_i32_10 : BitVec 32 := 4096#32
  let v41 : BitVec 32 := Scalar.muli c2_i32 c4096_i32_10
  v41
def k0_mult4 : BitVec 32 :=
  let c3_i32 : BitVec 32 := 3#32
  let c4096_i32_16 : BitVec 32 := 4096#32
  let v61 : BitVec 32 := Scalar.muli c3_i32 c4096_i32_16
  v61
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x128_S8x128_0_0 : ∀ a, (![0, 0] : Fin 2 → Nat) a + S8x128.size a ≤ S8x128.size a
  h_S8x128 : 0 < S8x128.numel
  h_S4096 : 0 < S4096.numel
  shapeCasts_S4096_S4096x1 : S4096.ShapeCasts S4096x1
  iota_S4096x8_d1_w32 : S4096x8.Iotas .tc 32 [1]
  broadcasts_S4096x1_S4096x8 : S4096x1.Broadcasts S4096x8
  natLt_1_32 : 1 < 32
  h_S4096x128 : 0 < S4096x128.numel
  dot_S4096x8_S8x128_S4096x128_1_0_0_1_n_n_wf : DotDims.WF S4096x8 S8x128 S4096x128 [1] [0] [0] [1] [] []
  hrank0 : 0 < grid0.rank
  k0_mult1_dvd : 4096 ∣ k0_mult1.toNat
  k0_off1_inb : ∀ (r : Fin 4), ∀ a, (k0_off1 (BitVec.ofNat 32 r.val)) a + S4096.size a ≤ S16384.size a
  k0_off2_inb : ∀ (r : Fin 4), ∀ a, (k0_off2 (BitVec.ofNat 32 r.val)) a + S4096x128.size a ≤ S16384x128.size a
  k0_mult2_dvd : 4096 ∣ k0_mult2.toNat
  k0_mult3_dvd : 4096 ∣ k0_mult3.toNat
  k0_mult4_dvd : 4096 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384.size a < S1000000.size a
  hwx0_0 : ∀ i : grid0.Coords, EltTy.bits .i32 = 32 ∨ (Rect.unit (s := S1000000) (fun a => cc0_transform_0 i a * S16384.size a) (fun a => (Pipeline.Clip.of (cc0_transform_0 i a) (S16384.size a) (S1000000.size a)).extent (S16384.size a)) fun a => Pipeline.Clip.inb (Pipeline.Clip.ok_of (hstart0_0 i a))).WholeWords (EltTy.packing .i32)
  hwxs0_0 : ∀ i : grid0.Coords, EltTy.bits .i32 = 32 ∨ (Rect.unit (s := S16384) (fun _ => 0) (fun a => (Pipeline.Clip.of (cc0_transform_0 i a) (S16384.size a) (S1000000.size a)).extent (S16384.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384x128.size a < S1000000x128.size a
  hwx0_1 : ∀ i : grid0.Coords, EltTy.bits .f32 = 32 ∨ (Rect.unit (s := S1000000x128) (fun a => cc0_transform_1 i a * S16384x128.size a) (fun a => (Pipeline.Clip.of (cc0_transform_1 i a) (S16384x128.size a) (S1000000x128.size a)).extent (S16384x128.size a)) fun a => Pipeline.Clip.inb (Pipeline.Clip.ok_of (hstart0_1 i a))).WholeWords (EltTy.packing .f32)
  hwxs0_1 : ∀ i : grid0.Coords, EltTy.bits .f32 = 32 ∨ (Rect.unit (s := S16384x128) (fun _ => 0) (fun a => (Pipeline.Clip.of (cc0_transform_1 i a) (S16384x128.size a) (S1000000x128.size a)).extent (S16384x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16384x128.size a < S1000000x128.size a
  hwx0_3 : ∀ i : grid0.Coords, EltTy.bits .f32 = 32 ∨ (Rect.unit (s := S1000000x128) (fun a => cc0_transform_3 i a * S16384x128.size a) (fun a => (Pipeline.Clip.of (cc0_transform_3 i a) (S16384x128.size a) (S1000000x128.size a)).extent (S16384x128.size a)) fun a => Pipeline.Clip.inb (Pipeline.Clip.ok_of (hstart0_3 i a))).WholeWords (EltTy.packing .f32)
  hwxs0_3 : ∀ i : grid0.Coords, EltTy.bits .f32 = 32 ∨ (Rect.unit (s := S16384x128) (fun _ => 0) (fun a => (Pipeline.Clip.of (cc0_transform_3 i a) (S16384x128.size a) (S1000000x128.size a)).extent (S16384x128.size a)) fun a => (Nat.zero_add _).trans_le (Pipeline.Clip.extent_le (Pipeline.Clip.ok_of (hstart0_3 i a)))).WholeWords (EltTy.packing .f32)

variable [Facts₀]

def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf

abbrev win0_0 : Pipeline.Window sig grid0 :=
  Pipeline.Window.ofSpecClip (Memref.whole main_arg2) S16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S16384x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg1) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S16384x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S8x128 : Shape := ⟨2, ![8, 128]⟩
abbrev S1000000 : Shape := ⟨1, ![1000000]⟩
abbrev S_ : Shape := ⟨0, ![]⟩
abbrev S1000000x1 : Shape := ⟨2, ![1000000, 1]⟩

abbrev nBuf : Space → Nat
  | .hbm => 13
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S8x128, .f32⟩
  | .hbm, ⟨2, _⟩ => ⟨S1000000, .i32⟩
  | .hbm, ⟨3, _⟩ => ⟨S_, .i32⟩
  | .hbm, ⟨4, _⟩ => ⟨S1000000, .i32⟩
  | .hbm, ⟨5, _⟩ => ⟨S1000000, .i1⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000x1, .i32⟩
  | .hbm, ⟨11, _⟩ => ⟨S1000000x128, .f32⟩
  | .hbm, ⟨12, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  gather_S8x128_S1000000x1_S1000000x128_1_0_n_n_0_1_1128_wf : GatherDims.WF S8x128 S1000000x1 S1000000x128 [1] [0] [] [0] [] 1 ![1, 128]

variable [Facts₀]

def gather_S8x128_S1000000x1_S1000000x128_1_0_n_n_0_1_1128 : GatherDims S8x128 S1000000x1 S1000000x128 where
  offsetDims := [1]
  collapsedSliceDims := [0]
  operandBatchingDims := []
  startIndicesBatchingDims := []
  startIndexMap := [0]
  indexVectorDim := 1
  sliceSizes := ![1, 128]
  wf := gather_S8x128_S1000000x1_S1000000x128_1_0_n_n_0_1_1128_wf

class Facts : Prop extends Facts₀ where

variable [Facts]
-- ==== Proof.BodyKernel.lean ====
/-
  One grid step of the kernel, run on its four staging buffers.

  The step reads the 8 x 128 table whole, and then, for each of four consecutive chunks of 4096 rows, reads the
  chunk's index words and the chunk's rows of the input block, and stores into the same rows of the result block
  a value computed from those three reads alone. The four stored chunks tile the 16384 x 128 result block, so
  after the step the result buffer holds, whatever it held before, the four stored values laid side by side;
  the three input buffers are only read and keep their contents. Nothing else is touched.
-/
import proofs.«427431_j27762668601803_3_alg».proof.Proof.Gen.Kernel.Frame
import proofs.«427431_j27762668601803_3_alg».proof.Proof.Gen.Kernel.Skeleton
import Idealize.ShloMosaic.Lib.Pipeline.Value

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

/-! ## The rectangles the step reads and writes -/

/-- The whole table. -/
abbrev rT : Rect S8x128 := Rect.unit (s := S8x128) ![0, 0] S8x128.size inb_S8x128_S8x128_0_0
/-- The index words of chunk k: entries 4096 k to 4096 k + 4095 of the 16384 staged words. -/
abbrev rI0 : Rect S16384 := Rect.unit (s := S16384) (k0_off1 0#32) S4096.size (k0_off1_inb 0)
abbrev rI1 : Rect S16384 := Rect.unit (s := S16384) (k0_off1 1#32) S4096.size (k0_off1_inb 1)
abbrev rI2 : Rect S16384 := Rect.unit (s := S16384) (k0_off1 2#32) S4096.size (k0_off1_inb 2)
abbrev rI3 : Rect S16384 := Rect.unit (s := S16384) (k0_off1 3#32) S4096.size (k0_off1_inb 3)
/-- The rows of chunk k, all 128 columns: rows 4096 k to 4096 k + 4095 of a 16384 x 128 block. -/
abbrev rX0 : Rect S16384x128 := Rect.unit (s := S16384x128) (k0_off2 0#32) S4096x128.size (k0_off2_inb 0)
abbrev rX1 : Rect S16384x128 := Rect.unit (s := S16384x128) (k0_off2 1#32) S4096x128.size (k0_off2_inb 1)
abbrev rX2 : Rect S16384x128 := Rect.unit (s := S16384x128) (k0_off2 2#32) S4096x128.size (k0_off2_inb 2)
abbrev rX3 : Rect S16384x128 := Rect.unit (s := S16384x128) (k0_off2 3#32) S4096x128.size (k0_off2_inb 3)

/-! ## What the step leaves in the result buffer -/

/-- The result block after the step, from what the index buffer (x0), the input buffer (x1) and the table buffer
    (x2) hold: the four stored chunks, the last store first. Each chunk's value depends on the table, on that
    chunk's index words and on that chunk's input rows only. -/
def out3 (x0 : Vec F S16384 .i32) (x1 : Vec F S16384x128 .f32) (x2 : Vec F S8x128 .f32) : Vec F S16384x128 .f32 :=
  View.canon [⟨rX3, k0_pay2 (View.ld x2 rT) (View.ld x0 rI3) (View.ld x1 rX3)⟩,
    ⟨rX2, k0_pay1 (View.ld x2 rT) (View.ld x0 rI2) (View.ld x1 rX2)⟩,
    ⟨rX1, k0_pay4 (View.ld x2 rT) (View.ld x0 rI1) (View.ld x1 rX1)⟩,
    ⟨rX0, k0_pay3 (View.ld x2 rT) (View.ld x0 rI0) (View.ld x1 rX0)⟩]

/-- The four row ranges tile the block, so every entry of the block lies in one of them. -/
theorem cover3 (p3 p2 p1 p0 : Vec F S4096x128 .f32) (y : S16384x128.Idx) :
    ∃ pc ∈ ([⟨rX3, p3⟩, ⟨rX2, p2⟩, ⟨rX1, p1⟩, ⟨rX0, p0⟩] : List (View.Piece (Elt F) S16384x128 .f32)), y ∈ pc.1.set :=
  View.cover_of_tiled [⟨rX3, p3⟩, ⟨rX2, p2⟩, ⟨rX1, p1⟩, ⟨rX0, p0⟩] S4096x128.size (by rfl) y

/-! ## The step's triple -/

set_option maxHeartbeats 1000000 in
/-- The step on whole staging buffers, the three inputs' at contents x0, x1, x2 and the result's at anything, runs
    to the continuation holding the inputs' as they were and the result's at `out3 x0 x1 x2`. -/
theorem sound_kernel (c : Dev nD) (E : Set ℕ) (i : grid0.Coords)
    (arg1 : Memref sig .tc .vmem S16384 .i32) (harg1 : arg1.IsWhole) (arg2 : Memref sig .tc .vmem S16384x128 .f32) (harg2 : arg2.IsWhole)
    (arg3 : Memref sig .tc .vmem S8x128 .f32) (harg3 : arg3.IsWhole) (arg4 : Memref sig .tc .vmem S16384x128 .f32) (harg4 : arg4.IsWhole)
    (x0 : Vec F S16384 .i32) (x1 : Vec F S16384x128 .f32) (x2 : Vec F S8x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _ _ _)

/-! ## The proof data of the pipeline -/

variable (m : (ℓ : Loc nD τ sig) → Buf (Elt F) ℓ) (ρ : Dev nD → PrngReg)

/-- The proof data on core c. The arrays are as the call finds them. The index window and the input window are
    fetched at every grid step and their last block overhangs the array, so a statement about their staging
    buffers binds only the rows inside the array: after the step each holds its block there (and, past the
    array's end, words no statement names). The table's buffer holds the table. The result window's buffer holds
    `o3 c t`, a parameter: a proof that reads the result chooses it, a proof that does not leaves it arbitrary. -/
def dats (o3 : Dev nD → Fin cfg0.N → S16384x128.Idx → Elt F .f32) (_ : Fin 1) (c : Dev nD) :
    Dat τ (Elt F) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => win0_1.fill (grid0.coords t) (fun _ => Classical.arbitrary _) (iblk m c 1 t)
    | ⟨2, _⟩ => iblk m c 2 t
    | ⟨3, _⟩ => o3 c t
  Φ _ := ΦA spec0 c
  q _ := fullShare
  owed _ := 0

variable (o3 : Dev nD → Fin cfg0.N → S16384x128.Idx → Elt F .f32)

theorem A_eq (c : Dev nD) (w : Fin cfg0.W) : (dats m o3 0 c).A w = V m c (Pipeline.arrRef spec0 w) := by
  dsimp only [dats]

theorem after_0 (c : Dev nD) (t : Fin cfg0.N) :
    (dats m o3 0 c).after 0 t = win0_0.fill (grid0.coords t) (fun _ => Classical.arbitrary _) (iblk m c 0 t) := by dsimp only [dats]
theorem after_1 (c : Dev nD) (t : Fin cfg0.N) :
    (dats m o3 0 c).after 1 t = win0_1.fill (grid0.coords t) (fun _ => Classical.arbitrary _) (iblk m c 1 t) := by dsimp only [dats]
theorem after_2 (c : Dev nD) (t : Fin cfg0.N) : (dats m o3 0 c).after 2 t = iblk m c 2 t := by dsimp only [dats]
theorem after_3 (c : Dev nD) (t : Fin cfg0.N) : (dats m o3 0 c).after 3 t = o3 c t := by dsimp only [dats]

/-- What the step finds in the index buffer: just fetched, the block on the rows inside the array and `d` past them. -/
theorem before_0 (c : Dev nD) (t : Fin cfg0.N) (d) :
    (dats m o3 0 c).before 0 t d = win0_0.fill (grid0.coords t) d (iblk m c 0 t) := by
  unfold Dat.before; rw [if_pos (fetch0_0 t)]; rfl
/-- The input buffer likewise. -/
theorem before_1 (c : Dev nD) (t : Fin cfg0.N) (d) :
    (dats m o3 0 c).before 1 t d = win0_1.fill (grid0.coords t) d (iblk m c 1 t) := by
  unfold Dat.before; rw [if_pos (fetch0_1 t)]; rfl
/-- The table's buffer holds the table at every step, fetched there or not. -/
theorem before_2 (c : Dev nD) (t : Fin cfg0.N) (d) : (dats m o3 0 c).before 2 t d = iblk m c 2 t :=
  before0_2_of m (dats m o3 0 c) (A_eq m o3 c 2) (after_2 m o3 c) t d

/-! ## The body obligation, the result buffer's contents not named -/

/-- The windows whose buffer contents this obligation does not name: the result's. -/
def fgt3 : Fin 4 → Bool := fun w => w.val == 3

/-- The step at any point, the result buffer handed over and taken back at contents nothing names. -/
theorem sound_body_fgt (c : Dev nD) (t : Fin cfg0.N) :
    iprop((dats m o3 0 c).Φ t.castSucc ∗ (dats m o3 0 c).owesAt () t.castSucc
        ∗ (∃ d, owns (c : Thread nD τ) (st0_0 t) fullShare ((dats m o3 0 c).before 0 t d))
        ∗ (∃ d, owns (c : Thread nD τ) (st0_1 t) fullShare ((dats m o3 0 c).before 1 t d))
        ∗ (∃ d, owns (c : Thread nD τ) (st0_2 t) fullShare ((dats m o3 0 c).before 2 t d))
        ∗ (∃ X, owns (c : Thread nD τ) (st0_3 t) fullShare X))
      ⊢ wp frame (wpE (defs₀ (F := F)) Variants.none c none) Set.univ (bodyAt0 t) (fun _ =>
          iprop((dats m o3 0 c).Φ t.succ ∗ (dats m o3 0 c).owesAt () t.succ
            ∗ (∃ d, owns (c : Thread nD τ) (st0_0 t) fullShare
                (win0_0.fill (grid0.coords t) d (win0_0.cut (grid0.coords t) ((dats m o3 0 c).after 0 t))))
            ∗ (∃ d, owns (c : Thread nD τ) (st0_1 t) fullShare
                (win0_1.fill (grid0.coords t) d (win0_1.cut (grid0.coords t) ((dats m o3 0 c).after 1 t))))
            ∗ owns (c : Thread nD τ) (st0_2 t) fullShare ((dats m o3 0 c).after 2 t)
            ∗ (∃ X, owns (c : Thread nD τ) (st0_3 t) fullShare X))) := by
  unfold bodyAt0
  rw [show (dats m o3 0 c).Φ t.succ = (dats m o3 0 c).Φ t.castSucc from rfl,
    show (dats m o3 0 c).owesAt () t.succ = (dats m o3 0 c).owesAt () t.castSucc from rfl,
    after_0, after_1, after_2, win0_0.cut_fill, win0_1.cut_fill]
  iintro ⟨HΦ, Ho, ⟨%d0, H0⟩, ⟨%d1, H1⟩, ⟨%d2, H2⟩, ⟨%X3, H3⟩⟩
  rw [before_0 m o3 c t d0, before_1 m o3 c t d1, before_2 m o3 c t d2]
  iapply (sound_kernel c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists _; iexact H3

/-- The library's body obligation at every point, the result window forgotten. -/
theorem body_obligation_fgt (c : Dev nD) :
    BodyObligationLoose (dats (F := F) m o3 0 c) (defs₀ (F := F)) Variants.none () Set.univ fgt3 := fun t => by
  rw [bigSep_W0, bigSep_W0]
  exact sound_body_fgt m o3 c t

/-! ## The body obligation, the result buffer's contents named on the rows inside the array -/

/-- The step at any point, when on the rows inside the array the four stored chunks are what `o3` says
    (`hrow`, whatever the index and input buffers hold past the array's end). -/
theorem sound_body_val
    (hrow : ∀ c t d0 d1, win0_3.cut (grid0.coords t)
        (out3 (win0_0.fill (grid0.coords t) d0 (iblk m c 0 t)) (win0_1.fill (grid0.coords t) d1 (iblk m c 1 t)) (iblk m c 2 t))
      = win0_3.cut (grid0.coords t) (o3 c t))
    (c : Dev nD) (t : Fin cfg0.N) :
    iprop((dats m o3 0 c).Φ t.castSucc ∗ (dats m o3 0 c).owesAt () t.castSucc
        ∗ (∃ d, owns (c : Thread nD τ) (st0_0 t) fullShare ((dats m o3 0 c).before 0 t d))
        ∗ (∃ d, owns (c : Thread nD τ) (st0_1 t) fullShare ((dats m o3 0 c).before 1 t d))
        ∗ (∃ d, owns (c : Thread nD τ) (st0_2 t) fullShare ((dats m o3 0 c).before 2 t d))
        ∗ (∃ d, owns (c : Thread nD τ) (st0_3 t) fullShare ((dats m o3 0 c).before 3 t d)))
      ⊢ wp frame (wpE (defs₀ (F := F)) Variants.none c none) Set.univ (bodyAt0 t) (fun _ =>
          iprop((dats m o3 0 c).Φ t.succ ∗ (dats m o3 0 c).owesAt () t.succ
            ∗ (∃ d, owns (c : Thread nD τ) (st0_0 t) fullShare
                (win0_0.fill (grid0.coords t) d (win0_0.cut (grid0.coords t) ((dats m o3 0 c).after 0 t))))
            ∗ (∃ d, owns (c : Thread nD τ) (st0_1 t) fullShare
                (win0_1.fill (grid0.coords t) d (win0_1.cut (grid0.coords t) ((dats m o3 0 c).after 1 t))))
            ∗ owns (c : Thread nD τ) (st0_2 t) fullShare ((dats m o3 0 c).after 2 t)
            ∗ (∃ d, owns (c : Thread nD τ) (st0_3 t) fullShare
                (win0_3.fill (grid0.coords t) d (win0_3.cut (grid0.coords t) ((dats m o3 0 c).after 3 t)))))) := by
  unfold bodyAt0
  rw [show (dats m o3 0 c).Φ t.succ = (dats m o3 0 c).Φ t.castSucc from rfl,
    show (dats m o3 0 c).owesAt () t.succ = (dats m o3 0 c).owesAt () t.castSucc from rfl,
    after_0, after_1, after_2, after_3, win0_0.cut_fill, win0_1.cut_fill]
  iintro ⟨HΦ, Ho, ⟨%d0, H0⟩, ⟨%d1, H1⟩, ⟨%d2, H2⟩, ⟨%d3, H3⟩⟩
  rw [before_0 m o3 c t d0, before_1 m o3 c t d1, before_2 m o3 c t d2]
  iapply (sound_kernel c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists (out3 (win0_0.fill (grid0.coords t) d0 (iblk m c 0 t)) (win0_1.fill (grid0.coords t) d1 (iblk m c 1 t)) (iblk m c 2 t))
  rw [← hrow c t d0 d1, win0_3.fill_cut]
  iexact H3

/-- The library's body obligation at every point, every window's buffer named. -/
theorem body_obligation_val
    (hrow : ∀ c t d0 d1, win0_3.cut (grid0.coords t)
        (out3 (win0_0.fill (grid0.coords t) d0 (iblk m c 0 t)) (win0_1.fill (grid0.coords t) d1 (iblk m c 1 t)) (iblk m c 2 t))
      = win0_3.cut (grid0.coords t) (o3 c t))
    (c : Dev nD) :
    BodyObligationLoose (dats (F := F) m o3 0 c) (defs₀ (F := F)) Variants.none () Set.univ := fun t => by
  rw [bigSep_W0, bigSep_W0]
  exact sound_body_val m o3 hrow c t

/-! ## The runs -/

set_option backward.isDefEq.respectTransparency.types false in
/-- From any memory with zero counters every weakly fair execution of the program terminates; the three argument
    arrays, which the pipeline only reads, end as they began. Nothing is said of the result array here. -/
theorem run_fgt : θ_run defs (onTc (τ := τ) (main (F := F))) (s₀ m ρ)
    (Pipeline.RDat.FramePost (cfgs 0) (fun c => (dats m o3 0 c).toRForget fgt3) (V m)) :=
  Pipeline.RDat.θ_run_frame cfgs (0 : Fin 1) launch0 defs₀ Variants.none (fun c => (dats m o3 0 c).toRForget fgt3) m ρ main
    (hbody := fun c => (body_obligation_fgt m o3 c).toRForget)
    (hshare := fun c => ((dats m o3 0 c).toRForget fgt3).share_full fun _ => rfl)
    (howed := fun _ _ => rfl) (V := V m) (hmain := hmain m Variants.none) (hA := A_eq m o3) (hΦ := fun _ _ => rfl)

set_option backward.isDefEq.respectTransparency.types false in
/-- The same run with the result named: the result array ends at what the library computes from the write-backs of
    `o3`'s rows inside the array, point by point. -/
theorem run_val
    (hrow : ∀ c t d0 d1, win0_3.cut (grid0.coords t)
        (out3 (win0_0.fill (grid0.coords t) d0 (iblk m c 0 t)) (win0_1.fill (grid0.coords t) d1 (iblk m c 1 t)) (iblk m c 2 t))
      = win0_3.cut (grid0.coords t) (o3 c t)) :
    θ_run defs (onTc (τ := τ) (main (F := F))) (s₀ m ρ) (Pipeline.FramePost cfgs (dats m o3) 0 (V m)) :=
  Pipeline.θ_run_frame cfgs (dats m o3) (0 : Fin 1) launch0 defs₀ Variants.none m ρ main
    (hbody := fun c => body_obligation_val m o3 hrow c) (hshare := fun c => (dats m o3 0 c).share_full fun _ => rfl)
    (howed := fun _ _ => rfl) (V := V m) (hmain := hmain m Variants.none) (hA := A_eq m o3) (hΦ := fun _ _ => rfl)

/-- Contents of the result window's buffer for a run that does not read them. -/
def noRead : Dev nD → Fin cfg0.N → S16384x128.Idx → Elt F .f32 := fun _ _ _ => Classical.choice (Elt.nonempty F .f32)

/-- The frame: the program runs to the end from any memory with zero counters, faults nowhere, and leaves its three
    argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePost.arr_in h c 1 rfl).trans ((A_eq m noRead c 1).trans (V_main_arg0 m c)),
      (Pipeline.RDat.FramePost.arr_in h c 2 rfl).trans ((A_eq m noRead c 2).trans (V_main_arg1 m c)),
      (Pipeline.RDat.FramePost.arr_in h c 0 rfl).trans ((A_eq m noRead c 0).trans (V_main_arg2 m c))⟩)
    (run_fgt m ρ noRead)

end Cert.Kernel.Body

end
-- ==== Proof.BodyKernelIdeal.lean ====
/-
  One grid step of the kernel, run on its four staging buffers.

  The step reads the 8 x 128 table whole, and then, for each of four consecutive chunks of 4096 rows, reads the
  chunk's index words and the chunk's rows of the input block, and stores into the same rows of the result block
  a value computed from those three reads alone. The four stored chunks tile the 16384 x 128 result block, so
  after the step the result buffer holds, whatever it held before, the four stored values laid side by side;
  the three input buffers are only read and keep their contents. Nothing else is touched.
-/
import proofs.«427431_j27762668601803_3_alg».proof.Proof.Gen.KernelIdeal.Frame
import proofs.«427431_j27762668601803_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

/-! ## The rectangles the step reads and writes -/

/-- The whole table. -/
abbrev rT : Rect S8x128 := Rect.unit (s := S8x128) ![0, 0] S8x128.size inb_S8x128_S8x128_0_0
/-- The index words of chunk k: entries 4096 k to 4096 k + 4095 of the 16384 staged words. -/
abbrev rI0 : Rect S16384 := Rect.unit (s := S16384) (k0_off1 0#32) S4096.size (k0_off1_inb 0)
abbrev rI1 : Rect S16384 := Rect.unit (s := S16384) (k0_off1 1#32) S4096.size (k0_off1_inb 1)
abbrev rI2 : Rect S16384 := Rect.unit (s := S16384) (k0_off1 2#32) S4096.size (k0_off1_inb 2)
abbrev rI3 : Rect S16384 := Rect.unit (s := S16384) (k0_off1 3#32) S4096.size (k0_off1_inb 3)
/-- The rows of chunk k, all 128 columns: rows 4096 k to 4096 k + 4095 of a 16384 x 128 block. -/
abbrev rX0 : Rect S16384x128 := Rect.unit (s := S16384x128) (k0_off2 0#32) S4096x128.size (k0_off2_inb 0)
abbrev rX1 : Rect S16384x128 := Rect.unit (s := S16384x128) (k0_off2 1#32) S4096x128.size (k0_off2_inb 1)
abbrev rX2 : Rect S16384x128 := Rect.unit (s := S16384x128) (k0_off2 2#32) S4096x128.size (k0_off2_inb 2)
abbrev rX3 : Rect S16384x128 := Rect.unit (s := S16384x128) (k0_off2 3#32) S4096x128.size (k0_off2_inb 3)

/-! ## What the step leaves in the result buffer -/

/-- The result block after the step, from what the index buffer (x0), the input buffer (x1) and the table buffer
    (x2) hold: the four stored chunks, the last store first. Each chunk's value depends on the table, on that
    chunk's index words and on that chunk's input rows only. -/
def out3 (x0 : Vec F S16384 .i32) (x1 : Vec F S16384x128 .f32) (x2 : Vec F S8x128 .f32) : Vec F S16384x128 .f32 :=
  View.canon [⟨rX3, k0_pay2 (View.ld x2 rT) (View.ld x0 rI3) (View.ld x1 rX3)⟩,
    ⟨rX2, k0_pay1 (View.ld x2 rT) (View.ld x0 rI2) (View.ld x1 rX2)⟩,
    ⟨rX1, k0_pay4 (View.ld x2 rT) (View.ld x0 rI1) (View.ld x1 rX1)⟩,
    ⟨rX0, k0_pay3 (View.ld x2 rT) (View.ld x0 rI0) (View.ld x1 rX0)⟩]

/-- The four row ranges tile the block, so every entry of the block lies in one of them. -/
theorem cover3 (p3 p2 p1 p0 : Vec F S4096x128 .f32) (y : S16384x128.Idx) :
    ∃ pc ∈ ([⟨rX3, p3⟩, ⟨rX2, p2⟩, ⟨rX1, p1⟩, ⟨rX0, p0⟩] : List (View.Piece (Elt F) S16384x128 .f32)), y ∈ pc.1.set :=
  View.cover_of_tiled [⟨rX3, p3⟩, ⟨rX2, p2⟩, ⟨rX1, p1⟩, ⟨rX0, p0⟩] S4096x128.size (by rfl) y

/-! ## The step's triple -/

set_option maxHeartbeats 1000000 in
/-- The step on whole staging buffers, the three inputs' at contents x0, x1, x2 and the result's at anything, runs
    to the continuation holding the inputs' as they were and the result's at `out3 x0 x1 x2`. -/
theorem sound_kernel (c : Dev nD) (E : Set ℕ) (i : grid0.Coords)
    (arg1 : Memref sig .tc .vmem S16384 .i32) (harg1 : arg1.IsWhole) (arg2 : Memref sig .tc .vmem S16384x128 .f32) (harg2 : arg2.IsWhole)
    (arg3 : Memref sig .tc .vmem S8x128 .f32) (harg3 : arg3.IsWhole) (arg4 : Memref sig .tc .vmem S16384x128 .f32) (harg4 : arg4.IsWhole)
    (x0 : Vec F S16384 .i32) (x1 : Vec F S16384x128 .f32) (x2 : Vec F S8x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _ _ _)

/-! ## The proof data of the pipeline -/

variable (m : (ℓ : Loc nD τ sig) → Buf (Elt F) ℓ) (ρ : Dev nD → PrngReg)

/-- The proof data on core c. The arrays are as the call finds them. The index window and the input window are
    fetched at every grid step and their last block overhangs the array, so a statement about their staging
    buffers binds only the rows inside the array: after the step each holds its block there (and, past the
    array's end, words no statement names). The table's buffer holds the table. The result window's buffer holds
    `o3 c t`, a parameter: a proof that reads the result chooses it, a proof that does not leaves it arbitrary. -/
def dats (o3 : Dev nD → Fin cfg0.N → S16384x128.Idx → Elt F .f32) (_ : Fin 1) (c : Dev nD) :
    Dat τ (Elt F) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => win0_1.fill (grid0.coords t) (fun _ => Classical.arbitrary _) (iblk m c 1 t)
    | ⟨2, _⟩ => iblk m c 2 t
    | ⟨3, _⟩ => o3 c t
  Φ _ := ΦA spec0 c
  q _ := fullShare
  owed _ := 0

variable (o3 : Dev nD → Fin cfg0.N → S16384x128.Idx → Elt F .f32)

theorem A_eq (c : Dev nD) (w : Fin cfg0.W) : (dats m o3 0 c).A w = V m c (Pipeline.arrRef spec0 w) := by
  dsimp only [dats]

theorem after_0 (c : Dev nD) (t : Fin cfg0.N) :
    (dats m o3 0 c).after 0 t = win0_0.fill (grid0.coords t) (fun _ => Classical.arbitrary _) (iblk m c 0 t) := by dsimp only [dats]
theorem after_1 (c : Dev nD) (t : Fin cfg0.N) :
    (dats m o3 0 c).after 1 t = win0_1.fill (grid0.coords t) (fun _ => Classical.arbitrary _) (iblk m c 1 t) := by dsimp only [dats]
theorem after_2 (c : Dev nD) (t : Fin cfg0.N) : (dats m o3 0 c).after 2 t = iblk m c 2 t := by dsimp only [dats]
theorem after_3 (c : Dev nD) (t : Fin cfg0.N) : (dats m o3 0 c).after 3 t = o3 c t := by dsimp only [dats]

/-- What the step finds in the index buffer: just fetched, the block on the rows inside the array and `d` past them. -/
theorem before_0 (c : Dev nD) (t : Fin cfg0.N) (d) :
    (dats m o3 0 c).before 0 t d = win0_0.fill (grid0.coords t) d (iblk m c 0 t) := by
  unfold Dat.before; rw [if_pos (fetch0_0 t)]; rfl
/-- The input buffer likewise. -/
theorem before_1 (c : Dev nD) (t : Fin cfg0.N) (d) :
    (dats m o3 0 c).before 1 t d = win0_1.fill (grid0.coords t) d (iblk m c 1 t) := by
  unfold Dat.before; rw [if_pos (fetch0_1 t)]; rfl
/-- The table's buffer holds the table at every step, fetched there or not. -/
theorem before_2 (c : Dev nD) (t : Fin cfg0.N) (d) : (dats m o3 0 c).before 2 t d = iblk m c 2 t :=
  before0_2_of m (dats m o3 0 c) (A_eq m o3 c 2) (after_2 m o3 c) t d

/-! ## The body obligation, the result buffer's contents not named -/

/-- The windows whose buffer contents this obligation does not name: the result's. -/
def fgt3 : Fin 4 → Bool := fun w => w.val == 3

/-- The step at any point, the result buffer handed over and taken back at contents nothing names. -/
theorem sound_body_fgt (c : Dev nD) (t : Fin cfg0.N) :
    iprop((dats m o3 0 c).Φ t.castSucc ∗ (dats m o3 0 c).owesAt () t.castSucc
        ∗ (∃ d, owns (c : Thread nD τ) (st0_0 t) fullShare ((dats m o3 0 c).before 0 t d))
        ∗ (∃ d, owns (c : Thread nD τ) (st0_1 t) fullShare ((dats m o3 0 c).before 1 t d))
        ∗ (∃ d, owns (c : Thread nD τ) (st0_2 t) fullShare ((dats m o3 0 c).before 2 t d))
        ∗ (∃ X, owns (c : Thread nD τ) (st0_3 t) fullShare X))
      ⊢ wp frame (wpE (defs₀ (F := F)) Variants.none c none) Set.univ (bodyAt0 t) (fun _ =>
          iprop((dats m o3 0 c).Φ t.succ ∗ (dats m o3 0 c).owesAt () t.succ
            ∗ (∃ d, owns (c : Thread nD τ) (st0_0 t) fullShare
                (win0_0.fill (grid0.coords t) d (win0_0.cut (grid0.coords t) ((dats m o3 0 c).after 0 t))))
            ∗ (∃ d, owns (c : Thread nD τ) (st0_1 t) fullShare
                (win0_1.fill (grid0.coords t) d (win0_1.cut (grid0.coords t) ((dats m o3 0 c).after 1 t))))
            ∗ owns (c : Thread nD τ) (st0_2 t) fullShare ((dats m o3 0 c).after 2 t)
            ∗ (∃ X, owns (c : Thread nD τ) (st0_3 t) fullShare X))) := by
  unfold bodyAt0
  rw [show (dats m o3 0 c).Φ t.succ = (dats m o3 0 c).Φ t.castSucc from rfl,
    show (dats m o3 0 c).owesAt () t.succ = (dats m o3 0 c).owesAt () t.castSucc from rfl,
    after_0, after_1, after_2, win0_0.cut_fill, win0_1.cut_fill]
  iintro ⟨HΦ, Ho, ⟨%d0, H0⟩, ⟨%d1, H1⟩, ⟨%d2, H2⟩, ⟨%X3, H3⟩⟩
  rw [before_0 m o3 c t d0, before_1 m o3 c t d1, before_2 m o3 c t d2]
  iapply (sound_kernel c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists _; iexact H3

/-- The library's body obligation at every point, the result window forgotten. -/
theorem body_obligation_fgt (c : Dev nD) :
    BodyObligationLoose (dats (F := F) m o3 0 c) (defs₀ (F := F)) Variants.none () Set.univ fgt3 := fun t => by
  rw [bigSep_W0, bigSep_W0]
  exact sound_body_fgt m o3 c t

/-! ## The body obligation, the result buffer's contents named on the rows inside the array -/

/-- The step at any point, when on the rows inside the array the four stored chunks are what `o3` says
    (`hrow`, whatever the index and input buffers hold past the array's end). -/
theorem sound_body_val
    (hrow : ∀ c t d0 d1, win0_3.cut (grid0.coords t)
        (out3 (win0_0.fill (grid0.coords t) d0 (iblk m c 0 t)) (win0_1.fill (grid0.coords t) d1 (iblk m c 1 t)) (iblk m c 2 t))
      = win0_3.cut (grid0.coords t) (o3 c t))
    (c : Dev nD) (t : Fin cfg0.N) :
    iprop((dats m o3 0 c).Φ t.castSucc ∗ (dats m o3 0 c).owesAt () t.castSucc
        ∗ (∃ d, owns (c : Thread nD τ) (st0_0 t) fullShare ((dats m o3 0 c).before 0 t d))
        ∗ (∃ d, owns (c : Thread nD τ) (st0_1 t) fullShare ((dats m o3 0 c).before 1 t d))
        ∗ (∃ d, owns (c : Thread nD τ) (st0_2 t) fullShare ((dats m o3 0 c).before 2 t d))
        ∗ (∃ d, owns (c : Thread nD τ) (st0_3 t) fullShare ((dats m o3 0 c).before 3 t d)))
      ⊢ wp frame (wpE (defs₀ (F := F)) Variants.none c none) Set.univ (bodyAt0 t) (fun _ =>
          iprop((dats m o3 0 c).Φ t.succ ∗ (dats m o3 0 c).owesAt () t.succ
            ∗ (∃ d, owns (c : Thread nD τ) (st0_0 t) fullShare
                (win0_0.fill (grid0.coords t) d (win0_0.cut (grid0.coords t) ((dats m o3 0 c).after 0 t))))
            ∗ (∃ d, owns (c : Thread nD τ) (st0_1 t) fullShare
                (win0_1.fill (grid0.coords t) d (win0_1.cut (grid0.coords t) ((dats m o3 0 c).after 1 t))))
            ∗ owns (c : Thread nD τ) (st0_2 t) fullShare ((dats m o3 0 c).after 2 t)
            ∗ (∃ d, owns (c : Thread nD τ) (st0_3 t) fullShare
                (win0_3.fill (grid0.coords t) d (win0_3.cut (grid0.coords t) ((dats m o3 0 c).after 3 t)))))) := by
  unfold bodyAt0
  rw [show (dats m o3 0 c).Φ t.succ = (dats m o3 0 c).Φ t.castSucc from rfl,
    show (dats m o3 0 c).owesAt () t.succ = (dats m o3 0 c).owesAt () t.castSucc from rfl,
    after_0, after_1, after_2, after_3, win0_0.cut_fill, win0_1.cut_fill]
  iintro ⟨HΦ, Ho, ⟨%d0, H0⟩, ⟨%d1, H1⟩, ⟨%d2, H2⟩, ⟨%d3, H3⟩⟩
  rw [before_0 m o3 c t d0, before_1 m o3 c t d1, before_2 m o3 c t d2]
  iapply (sound_kernel c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists (out3 (win0_0.fill (grid0.coords t) d0 (iblk m c 0 t)) (win0_1.fill (grid0.coords t) d1 (iblk m c 1 t)) (iblk m c 2 t))
  rw [← hrow c t d0 d1, win0_3.fill_cut]
  iexact H3

/-- The library's body obligation at every point, every window's buffer named. -/
theorem body_obligation_val
    (hrow : ∀ c t d0 d1, win0_3.cut (grid0.coords t)
        (out3 (win0_0.fill (grid0.coords t) d0 (iblk m c 0 t)) (win0_1.fill (grid0.coords t) d1 (iblk m c 1 t)) (iblk m c 2 t))
      = win0_3.cut (grid0.coords t) (o3 c t))
    (c : Dev nD) :
    BodyObligationLoose (dats (F := F) m o3 0 c) (defs₀ (F := F)) Variants.none () Set.univ := fun t => by
  rw [bigSep_W0, bigSep_W0]
  exact sound_body_val m o3 hrow c t

/-! ## The runs -/

set_option backward.isDefEq.respectTransparency.types false in
/-- From any memory with zero counters every weakly fair execution of the program terminates; the three argument
    arrays, which the pipeline only reads, end as they began. Nothing is said of the result array here. -/
theorem run_fgt : θ_run defs (onTc (τ := τ) (main (F := F))) (s₀ m ρ)
    (Pipeline.RDat.FramePost (cfgs 0) (fun c => (dats m o3 0 c).toRForget fgt3) (V m)) :=
  Pipeline.RDat.θ_run_frame cfgs (0 : Fin 1) launch0 defs₀ Variants.none (fun c => (dats m o3 0 c).toRForget fgt3) m ρ main
    (hbody := fun c => (body_obligation_fgt m o3 c).toRForget)
    (hshare := fun c => ((dats m o3 0 c).toRForget fgt3).share_full fun _ => rfl)
    (howed := fun _ _ => rfl) (V := V m) (hmain := hmain m Variants.none) (hA := A_eq m o3) (hΦ := fun _ _ => rfl)

set_option backward.isDefEq.respectTransparency.types false in
/-- The same run with the result named: the result array ends at what the library computes from the write-backs of
    `o3`'s rows inside the array, point by point. -/
theorem run_val
    (hrow : ∀ c t d0 d1, win0_3.cut (grid0.coords t)
        (out3 (win0_0.fill (grid0.coords t) d0 (iblk m c 0 t)) (win0_1.fill (grid0.coords t) d1 (iblk m c 1 t)) (iblk m c 2 t))
      = win0_3.cut (grid0.coords t) (o3 c t)) :
    θ_run defs (onTc (τ := τ) (main (F := F))) (s₀ m ρ) (Pipeline.FramePost cfgs (dats m o3) 0 (V m)) :=
  Pipeline.θ_run_frame cfgs (dats m o3) (0 : Fin 1) launch0 defs₀ Variants.none m ρ main
    (hbody := fun c => body_obligation_val m o3 hrow c) (hshare := fun c => (dats m o3 0 c).share_full fun _ => rfl)
    (howed := fun _ _ => rfl) (V := V m) (hmain := hmain m Variants.none) (hA := A_eq m o3) (hΦ := fun _ _ => rfl)

/-- Contents of the result window's buffer for a run that does not read them. -/
def noRead : Dev nD → Fin cfg0.N → S16384x128.Idx → Elt F .f32 := fun _ _ _ => Classical.choice (Elt.nonempty F .f32)

/-- The frame: the program runs to the end from any memory with zero counters, faults nowhere, and leaves its three
    argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePost.arr_in h c 1 rfl).trans ((A_eq m noRead c 1).trans (V_main_arg0 m c)),
      (Pipeline.RDat.FramePost.arr_in h c 2 rfl).trans ((A_eq m noRead c 2).trans (V_main_arg1 m c)),
      (Pipeline.RDat.FramePost.arr_in h c 0 rfl).trans ((A_eq m noRead c 0).trans (V_main_arg2 m c))⟩)
    (run_fgt m ρ noRead)

end Cert.KernelIdeal.Body

end
-- ==== Proof.GatherSum.lean ====
/-
  The function both programs compute, stated once over literal shapes.

  A table g of 8 rows and 128 columns, an array x of 1000000 rows and 128 columns, and one 32-bit word per row
  of x. Row n of the result is row n of x plus the table row the n-th word selects. A word selects a row by its
  signed value, with everything below 0 taken to row 0 and everything above 7 taken to row 7: that is how a
  clamp to [0, 7] before a one-hot comparison behaves, and how a gather whose start index is clamped into the
  table behaves.
-/
import Idealize.ShloMosaic.Lib.ValueIdx

noncomputable section

namespace Cert.GatherSum

open Idealize.ShloMosaic Idealize.ShloMosaic.ValueIdx

/-- The table row a word selects: its signed value, cut off at 0 below and at 7 above. -/
def rowOf (w : BitVec 32) : Fin 8 := ⟨min w.toInt.toNat 7, by omega⟩

/-- One entry of the result: the entry of x plus the entry of the selected table row in the same column. -/
def entry (x : EReal) (g : (⟨2, ![8, 128]⟩ : Shape).Idx → EReal) (w : BitVec 32) (q : Fin 128) : EReal :=
  x + g (ix2 (rowOf w) q)

/-- The whole result: entry (n, q) is x(n, q) + g(rowOf(idx n), q). -/
def G (x : (⟨2, ![1000000, 128]⟩ : Shape).Idx → EReal) (g : (⟨2, ![8, 128]⟩ : Shape).Idx → EReal)
    (idx : (⟨1, ![1000000]⟩ : Shape).Idx → BitVec 32) : (⟨2, ![1000000, 128]⟩ : Shape).Idx → EReal :=
  fun i => entry (x i) g (idx (ix1 (n := 1000000) (i 0))) (i 1)

/-- A word that is not negative and is at most 7 selects the row of its own value. -/
theorem rowOf_val_of_nonneg (w : BitVec 32) (h : 0 ≤ w.toInt) : (rowOf w).val = min w.toNat 7 := by
  have e : w.toInt.toNat = w.toNat := by
    rw [BitVec.toInt_eq_toNat_cond] at h ⊢
    split at h <;> rename_i hlt
    · rw [if_pos hlt]; omega
    · exfalso; have := w.isLt; omega
  show min w.toInt.toNat 7 = _
  rw [e]

end Cert.GatherSum

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.ChunkValue.lean ====
/-
  One chunk of the kernel's result, read at an entry.

  The kernel handles 4096 rows at a time. For a chunk it has the 8 x 128 table g, one 32-bit word per row, and
  the chunk x of the input, and it stores x + H * g, where H is the 4096 x 8 matrix with a 1 in row r at the column
  the r-th word selects and 0 elsewhere, and the product is accumulated from zero. This file reads that value at
  an entry (r, q):

  * clamping a word to [0, 7] by a signed maximum with 0 and a signed minimum with 7 gives the word whose value
    is the selected row, `rowOf`: a negative word goes to 0, a word above 7 to 7, any other word is kept;
  * that word, repeated along the 8 columns and compared with the column number b, gives the bit 1 exactly when
    b is the selected row; widened and converted, the bit is the extended real 1 or 0;
  * row r of the product is then the sum over b of H(r, b) * g(b, q), in which every term but the selected row's
    is 0 * g(b, q) = 0 and the selected row's is 1 * g(b, q) = g(b, q). Both equations hold for every extended
    real, infinite ones included, so nothing is asked of g;
  * the final addition has x first.

  The four stored values of the kernel's body are this one function.
-/
import proofs.«427431_j27762668601803_3_alg».proof.Proof.Gen.KernelIdeal.Skeleton
import proofs.«427431_j27762668601803_3_alg».proof.Proof.GatherSum
import proofs.«427431_j27762668601803_3_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.ChunkValue

open Idealize.ShloMosaic Idealize.ShloMosaic.ValueIdx Cert.KernelIdeal Cert.GatherSum

/-! ## The clamp of a word -/

/-- A signed maximum with 0 followed by a signed minimum with 7 leaves the word of the selected row. -/
theorem clamp_eq (w : BitVec 32) :
    IntOp.minsi 7#32 (IntOp.maxsi 0#32 w) = BitVec.ofNat 32 (rowOf w).val := by
  have e0 : (0#32 : BitVec 32).toInt = 0 := by decide
  have e7 : (7#32 : BitVec 32).toInt = 7 := by decide
  unfold IntOp.minsi IntOp.maxsi
  by_cases hneg : w.toInt < 0
  · -- a negative word: the maximum is 0, which the minimum keeps
    have h1 : w.slt 0#32 = true := by rw [BitVec.slt_iff_toInt_lt, e0]; exact hneg
    rw [if_pos h1, if_neg (by decide)]
    have hr : (rowOf w).val = 0 := by show min w.toInt.toNat 7 = 0; omega
    rw [hr]
  · have h1 : ¬ (w.slt 0#32 = true) := by rw [BitVec.slt_iff_toInt_lt, e0]; exact hneg
    rw [if_neg h1]
    by_cases h7 : 7 < w.toInt
    · -- a word above 7: the minimum is 7
      have h2 : (7#32 : BitVec 32).slt w = true := by rw [BitVec.slt_iff_toInt_lt, e7]; exact h7
      rw [if_pos h2]
      have hr : (rowOf w).val = 7 := by show min w.toInt.toNat 7 = 7; omega
      rw [hr]
    · -- a word from 0 to 7 is kept, and is the word of its own value
      have h2 : ¬ ((7#32 : BitVec 32).slt w = true) := by rw [BitVec.slt_iff_toInt_lt, e7]; exact h7
      rw [if_neg h2]
      have hr : (rowOf w).val = min w.toNat 7 := rowOf_val_of_nonneg w (by omega)
      have hle : w.toNat ≤ 7 := by
        have := BitVec.toInt_eq_toNat_cond w
        have := w.isLt
        omega
      apply BitVec.eq_of_toNat_eq
      rw [BitVec.toNat_ofNat, hr]
      omega

/-! ## The one-hot matrix -/

/-- The 4096 x 8 matrix the kernel builds from a chunk of words. -/
def onehot (w : IVec S4096 32) : FVec Ideal S4096x8 .f32 :=
  sitofp .f32 (extui 32 (cmpi .eq
    (broadcastTo S4096x8 (shapeCast S4096x1 (minsi (broadcast S4096 7#32) (maxsi (broadcast S4096 0#32) w))
      Gen.shapeCasts_S4096_S4096x1) Gen.broadcasts_S4096x1_S4096x8)
    (iota .tc S4096x8 32 [1] Gen.iota_S4096x8_d1_w32)) Gen.natLt_1_32)

/-- The clamped words, laid out as a column and repeated along the 8 columns, read at (r, b) the r-th one. -/
theorem spread_apply (v : IVec S4096 32) (r : Fin 4096) (b : Fin 8) :
    broadcastTo S4096x8 (shapeCast S4096x1 v Gen.shapeCasts_S4096_S4096x1) Gen.broadcasts_S4096x1_S4096x8 (ix2 r b)
      = v (ix1 r) := by
  refine (broadcastTo_apply _ Gen.broadcasts_S4096x1_S4096x8 (ix2 r b) (ix2 r (0 : Fin 1)) ?_).trans ?_
  · intro a
    match a with
    | ⟨0, _⟩ => rfl
    | ⟨1, _⟩ => rfl
  · refine shapeCast_apply v Gen.shapeCasts_S4096_S4096x1 (ix2 r (0 : Fin 1)) (ix1 r) ?_
    rw [Shape.rowMajor_val_two, Shape.rowMajor_val_one]
    show r.val = r.val * 1 + 0
    omega

/-- The bit that compares the word of row m with the word of column b, widened and converted: 1 when b is m,
    0 otherwise. -/
theorem bit_value (m b : Fin 8) :
    ((((IntOp.cmpi .eq (BitVec.ofNat 32 m.val) (BitVec.ofNat 32 b.val)).setWidth 32).toInt : ℝ) : EReal)
      = if b = m then 1 else 0 := by
  by_cases h : b = m
  · subst h
    rw [if_pos rfl]
    have hc : IntOp.cmpi .eq (BitVec.ofNat 32 b.val) (BitVec.ofNat 32 b.val) = 1#1 := by
      show BitVec.ofBool (BitVec.ofNat 32 b.val == BitVec.ofNat 32 b.val) = 1#1
      rw [beq_self_eq_true]; rfl
    rw [hc]
    have : ((1#1 : BitVec 1).setWidth 32).toInt = 1 := by decide
    rw [this, Int.cast_one, EReal.coe_one]
  · rw [if_neg h]
    have hne : ¬ (BitVec.ofNat 32 m.val = BitVec.ofNat 32 b.val) := by
      intro e
      have e' := congrArg BitVec.toNat e
      rw [BitVec.toNat_ofNat, BitVec.toNat_ofNat] at e'
      have := m.isLt
      have := b.isLt
      exact h (Fin.ext (by omega))
    have hc : IntOp.cmpi .eq (BitVec.ofNat 32 m.val) (BitVec.ofNat 32 b.val) = 0#1 := by
      show BitVec.ofBool (BitVec.ofNat 32 m.val == BitVec.ofNat 32 b.val) = 0#1
      rw [beq_eq_false_iff_ne.mpr hne]; rfl
    rw [hc]
    have : ((0#1 : BitVec 1).setWidth 32).toInt = 0 := by decide
    rw [this, Int.cast_zero, EReal.coe_zero]

/-- The one-hot matrix at (r, b): 1 when b is the row the r-th word selects, 0 otherwise. -/
theorem onehot_apply (w : IVec S4096 32) (r : Fin 4096) (b : Fin 8) :
    onehot w (ix2 r b) = if b = rowOf (w (ix1 r)) then 1 else 0 := by
  have hi : iota .tc S4096x8 32 [1] Gen.iota_S4096x8_d1_w32 (ix2 r b) = BitVec.ofNat 32 b.val :=
    iota_single_apply .tc S4096x8 32 1 Gen.iota_S4096x8_d1_w32 (ix2 r b)
  have hs := spread_apply (minsi (broadcast S4096 7#32) (maxsi (broadcast S4096 0#32) w)) r b
  have hv : minsi (broadcast S4096 7#32) (maxsi (broadcast S4096 0#32) w) (ix1 r)
      = BitVec.ofNat 32 (rowOf (w (ix1 r))).val := clamp_eq (w (ix1 r))
  show ((((IntOp.cmpi .eq
      (broadcastTo S4096x8 (shapeCast S4096x1 (minsi (broadcast S4096 7#32) (maxsi (broadcast S4096 0#32) w))
        Gen.shapeCasts_S4096_S4096x1) Gen.broadcasts_S4096x1_S4096x8 (ix2 r b))
      (iota .tc S4096x8 32 [1] Gen.iota_S4096x8_d1_w32 (ix2 r b))).setWidth 32).toInt : ℝ) : EReal) = _
  rw [hs, hv, hi]
  exact bit_value (rowOf (w (ix1 r))) b

/-! ## The stored value -/

/-- The value a chunk stores: the input chunk plus the product of the one-hot matrix with the table, the
    product accumulated from zero. -/
def body (v0 : FVec Ideal S8x128 .f32) (w : IVec S4096 32) (x : FVec Ideal S4096x128 .f32) : FVec Ideal S4096x128 .f32 :=
  addf x (matmul dot_S4096x8_S8x128_S4096x128_1_0_0_1_n_n (some .fp32) (onehot w) v0
    (constant S4096x128 .f32 0x00000000#32))

/-- The kernel's contraction pattern is the plain one, 4096 x 8 by 8 x 128. -/
theorem dot_eq_plain : dot_S4096x8_S8x128_S4096x128_1_0_0_1_n_n = DotDims.plain 4096 8 128 := rfl

/-- The stored value at (r, q): the input entry plus the entry of the selected table row. -/
theorem body_apply (v0 : FVec Ideal S8x128 .f32) (w : IVec S4096 32) (x : FVec Ideal S4096x128 .f32)
    (r : Fin 4096) (q : Fin 128) :
    body v0 w x (ix2 r q) = entry (x (ix2 r q)) v0 (w (ix1 r)) q := by
  show x (ix2 r q) + FloatOps.matmul dot_S4096x8_S8x128_S4096x128_1_0_0_1_n_n (some .fp32) (onehot w) v0
      (constant S4096x128 .f32 0x00000000#32) (ix2 r q) = x (ix2 r q) + v0 (ix2 (rowOf (w (ix1 r))) q)
  congr 1
  rw [dot_eq_plain]
  refine (Cert.LibPlainDot.matmul_zero_apply (some .fp32) (onehot w) v0 (ix2 r q)).trans ?_
  show ∑ k : Fin 8, onehot w (ix2 r k) * v0 (ix2 k q) = v0 (ix2 (rowOf (w (ix1 r))) q)
  rw [Fintype.sum_eq_single (rowOf (w (ix1 r)))]
  · rw [onehot_apply, if_pos rfl, one_mul]
  · intro b hb
    rw [onehot_apply, if_neg hb, zero_mul]

/-! ## The four stored values of the kernel's body -/

theorem pay1_apply (v0 : Vec Ideal S8x128 .f32) (w : Vec Ideal S4096 .i32) (x : Vec Ideal S4096x128 .f32)
    (r : Fin 4096) (q : Fin 128) :
    Cert.KernelIdeal.Gen.k0_pay1 (F := Ideal) v0 w x (ix2 r q) = Cert.GatherSum.entry (x (ix2 r q)) v0 (w (ix1 r)) q :=
  body_apply v0 w x r q

theorem pay2_apply (v0 : Vec Ideal S8x128 .f32) (w : Vec Ideal S4096 .i32) (x : Vec Ideal S4096x128 .f32)
    (r : Fin 4096) (q : Fin 128) :
    Cert.KernelIdeal.Gen.k0_pay2 (F := Ideal) v0 w x (ix2 r q) = Cert.GatherSum.entry (x (ix2 r q)) v0 (w (ix1 r)) q :=
  body_apply v0 w x r q

theorem pay3_apply (v0 : Vec Ideal S8x128 .f32) (w : Vec Ideal S4096 .i32) (x : Vec Ideal S4096x128 .f32)
    (r : Fin 4096) (q : Fin 128) :
    Cert.KernelIdeal.Gen.k0_pay3 (F := Ideal) v0 w x (ix2 r q) = Cert.GatherSum.entry (x (ix2 r q)) v0 (w (ix1 r)) q :=
  body_apply v0 w x r q

theorem pay4_apply (v0 : Vec Ideal S8x128 .f32) (w : Vec Ideal S4096 .i32) (x : Vec Ideal S4096x128 .f32)
    (r : Fin 4096) (q : Fin 128) :
    Cert.KernelIdeal.Gen.k0_pay4 (F := Ideal) v0 w x (ix2 r q) = Cert.GatherSum.entry (x (ix2 r q)) v0 (w (ix1 r)) q :=
  body_apply v0 w x r q

end Cert.KernelIdeal.ChunkValue

end
-- ==== Proof.KernelValue.lean ====
/-
  The result array after the run, at the exact-real reading, is the clamped-row sum of the argument arrays.

  One grid step leaves in the result block, row by row, the input block's row plus the table row the row's index
  word selects: each of the four stored chunks is that, and the chunks tile the block. This holds for every row
  of the block, also for rows past the array's end, whose index words and input entries are words nothing
  names; only the rows inside the array are written back. A row inside the array of block t is row
  16384 t + r of the arrays, for all three windows alike, so what point t writes back is block t of the
  function G of the argument arrays; the 62 blocks cover the 1000000 rows, so the array ends at G.
-/
import proofs.«427431_j27762668601803_3_alg».proof.Proof.BodyKernelIdeal
import proofs.«427431_j27762668601803_3_alg».proof.Proof.ChunkValue
import proofs.«427431_j27762668601803_3_alg».proof.Proof.GatherSum
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Body Cert.GatherSum
open Idealize.ShloMosaic Idealize.ShloMosaic.ValueIdx Idealize.ShloMosaic.TcCoe Idealize.SL.Sem
open Idealize.ShloMosaic.Pipeline (Dat Cfg Window)

/-! ## One grid step, row by row -/

/-- What a step leaves in the result block from what the three input buffers hold: row r is the input block's
    row r plus the table row that the r-th index word selects. -/
def blockFn (X0 : Vec Ideal S16384 .i32) (X1 : Vec Ideal S16384x128 .f32) (X2 : Vec Ideal S8x128 .f32) :
    Vec Ideal S16384x128 .f32 :=
  fun y => entry (X1 y) X2 (X0 (ix1 (n := 16384) (y 0))) (y 1)

theorem zero2 : (![0, 0] : Fin 2 → ℕ) = fun _ => 0 := funext fun a => by fin_cases a <;> rfl

/-- One stored chunk is the row-by-row function on its rows: the chunk's index words and input rows sit at the
    same row offset `o1 0 = o2 0` of their buffers, and the chunk spans all 128 columns (`o2 1 = 0`). -/
theorem piece_eq (X0 : Vec Ideal S16384 .i32) (X1 : Vec Ideal S16384x128 .f32) (X2 : Vec Ideal S8x128 .f32)
    (o1 : Fin 1 → ℕ) (o2 : Fin 2 → ℕ) (h1 : ∀ a, o1 a + S4096.size a ≤ S16384.size a)
    (h2 : ∀ a, o2 a + S4096x128.size a ≤ S16384x128.size a) (e0 : o2 0 = o1 0) (e1 : o2 1 = 0)
    (pay : Vec Ideal S8x128 .f32 → Vec Ideal S4096 .i32 → Vec Ideal S4096x128 .f32 → FVec Ideal S4096x128 .f32)
    (hpay : ∀ v0 w xx (r : Fin 4096) (q : Fin 128), pay v0 w xx (ix2 r q) = entry (xx (ix2 r q)) v0 (w (ix1 r)) q)
    (x : S4096x128.Idx) :
    pay (View.ld X2 rT) (View.ld X0 (Rect.unit (s := S16384) o1 S4096.size h1))
        (View.ld X1 (Rect.unit (s := S16384x128) o2 S4096x128.size h2)) x
      = blockFn X0 X1 X2 ((Rect.unit (s := S16384x128) o2 S4096x128.size h2).emb x) := by
  obtain ⟨r, q, rfl⟩ : ∃ (r : Fin 4096) (q : Fin 128), x = ix2 r q := ⟨x 0, x 1, eq_ix2 x⟩
  rw [hpay, View.ld_unit_zero zero2 inb_S8x128_S8x128_0_0 X2]
  unfold blockFn
  have hrow : (Rect.unit (s := S16384) o1 S4096.size h1).emb (ix1 r)
      = ix1 (n := 16384) (((Rect.unit (s := S16384x128) o2 S4096x128.size h2).emb (ix2 r q)) 0) := by
    funext a
    match a with
    | ⟨0, _⟩ =>
      apply Fin.ext
      rw [Rect.emb_apply]
      show o1 0 + 1 * r.val = (((Rect.unit (s := S16384x128) o2 S4096x128.size h2).emb (ix2 r q)) 0).val
      rw [Rect.emb_apply]
      show o1 0 + 1 * r.val = o2 0 + 1 * r.val
      rw [e0]
  have hcol : ((Rect.unit (s := S16384x128) o2 S4096x128.size h2).emb (ix2 r q)) 1 = q := by
    apply Fin.ext
    rw [Rect.emb_apply]
    show o2 1 + 1 * q.val = q.val
    rw [e1]; omega
  show entry (X1 ((Rect.unit (s := S16384x128) o2 S4096x128.size h2).emb (ix2 r q))) X2
      (X0 ((Rect.unit (s := S16384) o1 S4096.size h1).emb (ix1 r))) q = _
  rw [hrow, hcol]

/-- The four stored chunks together are the row-by-row function on the whole block. -/
theorem out3_eq (X0 : Vec Ideal S16384 .i32) (X1 : Vec Ideal S16384x128 .f32) (X2 : Vec Ideal S8x128 .f32) :
    out3 (F := Ideal) X0 X1 X2 = blockFn X0 X1 X2 := by
  funext y
  refine View.canon_apply_of_pieces (blockFn X0 X1 X2) _ ?_ y (cover3 _ _ _ _ y)
  intro p hp x
  simp only [List.mem_cons, List.not_mem_nil, or_false] at hp
  rcases hp with rfl | rfl | rfl | rfl
  · exact piece_eq X0 X1 X2 (k0_off1 3#32) (k0_off2 3#32) (k0_off1_inb 3) (k0_off2_inb 3) (by decide) (by decide) _
      ChunkValue.pay2_apply x
  · exact piece_eq X0 X1 X2 (k0_off1 2#32) (k0_off2 2#32) (k0_off1_inb 2) (k0_off2_inb 2) (by decide) (by decide) _
      ChunkValue.pay1_apply x
  · exact piece_eq X0 X1 X2 (k0_off1 1#32) (k0_off2 1#32) (k0_off1_inb 1) (k0_off2_inb 1) (by decide) (by decide) _
      ChunkValue.pay4_apply x
  · exact piece_eq X0 X1 X2 (k0_off1 0#32) (k0_off2 0#32) (k0_off1_inb 0) (k0_off2_inb 0) (by decide) (by decide) _
      ChunkValue.pay3_apply x

/-! ## The step at grid point t, on the rows inside the array -/

variable (m : (ℓ : Loc nD τ sig) → Buf (Elt Ideal) ℓ) (ρ : Dev nD → PrngReg)

/-- The clamped-row sum of the three argument arrays as launched. -/
def Gm (c : Dev nD) : Buf (Elt Ideal) ((c : Thread nD τ).loc main_v0) :=
  G (m ((c : Thread nD τ).loc main_arg0)) (m ((c : Thread nD τ).loc main_arg1)) (m ((c : Thread nD τ).loc main_arg2))

/-- What the result window's buffer is said to hold after the step at point t: on the rows inside the array,
    block t of `Gm`; past the array's end, zeros (nothing reads them). -/
def o3 (c : Dev nD) (t : Fin cfg0.N) : S16384x128.Idx → Elt Ideal .f32 :=
  win0_3.fill (grid0.coords t) (fun _ => (0 : EReal)) ((win0_3.blk t).view.read (Elt Ideal) (Gm m c))

/-- The table's block is the whole table. -/
theorem iblk_2 (c : Dev nD) (t : Fin cfg0.N) : iblk m c 2 t = m ((c : Thread nD τ).loc main_arg1) := by
  have hz : (fun a => (win0_2.index t) a * main_arg1.ty.shape.size a) = fun _ => 0 := funext fun a => by
    fin_cases a <;> rfl
  exact Memref.read_access_unit_zero (Elt Ideal) main_arg1 hz _ _

/-- On the rows inside the array the four stored chunks are block t of `Gm`, whatever the index and input buffers
    hold past the array's end. -/
theorem hrow (c : Dev nD) (t : Fin cfg0.N) (d0 : S16384.Idx → Elt Ideal .i32) (d1 : S16384x128.Idx → Elt Ideal .f32) :
    win0_3.cut (grid0.coords t)
        (out3 (win0_0.fill (grid0.coords t) d0 (iblk m c 0 t)) (win0_1.fill (grid0.coords t) d1 (iblk m c 1 t)) (iblk m c 2 t))
      = win0_3.cut (grid0.coords t) (o3 m c t) := by
  rw [out3_eq]
  unfold o3
  rw [win0_3.cut_fill, iblk_2]
  funext j
  -- the row of j in the index window's leading part (the two windows cut their last block alike)
  let j0 : (win0_0.xblock (grid0.coords t)).Idx := fun a => match a with | ⟨0, _⟩ => ⟨(j 0).val, (j 0).isLt⟩
  have hj0 : ix1 (n := 16384) ((win0_3.xinj (grid0.coords t) j) 0) = win0_0.xinj (grid0.coords t) j0 := by
    funext a
    match a with
    | ⟨0, _⟩ => rfl
  have e1 : win0_1.fill (grid0.coords t) d1 (iblk m c 1 t) (win0_3.xinj (grid0.coords t) j) = iblk m c 1 t j :=
    win0_1.fill_xinj (grid0.coords t) d1 (iblk m c 1 t) j
  have e0 : win0_0.fill (grid0.coords t) d0 (iblk m c 0 t) (ix1 (n := 16384) ((win0_3.xinj (grid0.coords t) j) 0))
      = iblk m c 0 t j0 := by
    rw [hj0]; exact win0_0.fill_xinj _ _ _ _
  show entry (win0_1.fill (grid0.coords t) d1 (iblk m c 1 t) (win0_3.xinj (grid0.coords t) j)) (m (c.tc.loc main_arg1))
      (win0_0.fill (grid0.coords t) d0 (iblk m c 0 t) (ix1 (n := 16384) ((win0_3.xinj (grid0.coords t) j) 0)))
      ((win0_3.xinj (grid0.coords t) j) 1) = _
  rw [e1, e0]
  -- each block entry is the array's entry under it
  have hA : (win0_1.blk t).view.emb j = (win0_3.blk t).view.emb j := by
    funext a
    match a with
    | ⟨0, _⟩ => rfl
    | ⟨1, _⟩ => rfl
  have hB : (win0_0.blk t).view.emb j0 = ix1 (n := 1000000) (((win0_3.blk t).view.emb j) 0) := by
    funext a
    match a with
    | ⟨0, _⟩ => rfl
  have hC : (win0_3.xinj (grid0.coords t) j) 1 = ((win0_3.blk t).view.emb j) 1 := by
    apply Fin.ext
    show (j 1).val = ((win0_3.rect t).emb j 1).val
    rw [Window.rect_emb_val]
    have h01 : win0_3.index t 1 = 0 := rfl
    rw [h01]; omega
  show entry (m (c.tc.loc main_arg0) ((win0_1.blk t).view.emb j)) (m (c.tc.loc main_arg1))
      (m (c.tc.loc main_arg2) ((win0_0.blk t).view.emb j0)) ((win0_3.xinj (grid0.coords t) j) 1)
    = Gm m c ((win0_3.blk t).view.emb j)
  rw [hA, hB, hC]
  rfl

/-! ## The result array after the run -/

/-- What point t writes back is block t of `Gm`. -/
theorem flushed_eq (c : Dev nD) (t : Fin cfg0.N) :
    (dats m (o3 m) 0 c).flushed 3 t = ((cfg0.win 3).blk t).view.read (Elt Ideal) (Gm m c) := by
  show win0_3.cut (grid0.coords t) ((dats m (o3 m) 0 c).after 3 t) = _
  rw [after_3]
  unfold o3
  exact win0_3.cut_fill _ _ _

/-- The schedule of the result window, decided over the 62 grid points: block t starts at row 16384 t and spans
    all 128 columns; it has 16384 rows inside the array, or, at the last point, the 576 rows that remain. -/
theorem blk_facts : ∀ t : Fin cfg0.N, win0_3.index t (0 : Fin 2) = t.val ∧ win0_3.index t (1 : Fin 2) = 0
    ∧ win0_3.xsize (grid0.coords t) (0 : Fin 2) = min 16384 (1000000 - 16384 * t.val)
    ∧ win0_3.xsize (grid0.coords t) (1 : Fin 2) = 128 :=
  (by decide +kernel : ∀ t : Fin grid0.N, _)

/-- An entry of the array is in block t iff each coordinate is in the block's range on its axis. -/
theorem mem_blk (t : Fin cfg0.N) (i : S1000000x128.Idx) :
    i ∈ ((cfg0.win 3).blk t).view.set ↔ ∀ a : Fin 2, win0_3.index t a * S16384x128.size a ≤ (i a).val
      ∧ (i a).val < win0_3.index t a * S16384x128.size a + win0_3.xsize (grid0.coords t) a := by
  show i ∈ ((View.whole main_v0).slice (win0_3.rect t)).set ↔ _
  rw [View.set_slice_whole, Rect.mem_set_unit]
  exact Iff.rfl

/-- Row n of the array lies in block n / 16384: the blocks cover the array. -/
theorem cover (i : S1000000x128.Idx) :
    ∃ t : Fin cfg0.N, (cfg0.win 3).flush t = true ∧ i ∈ ((cfg0.win 3).blk t).view.set := by
  have hi0 : (i 0).val < 1000000 := (i 0).isLt
  have hi1 : (i 1).val < 128 := (i 1).isLt
  have hN : cfg0.N = 62 := N_0
  have ht : (i 0).val / 16384 < cfg0.N := by rw [hN]; omega
  refine ⟨⟨(i 0).val / 16384, ht⟩, flush0_3 _, ?_⟩
  rw [mem_blk]
  obtain ⟨e0, e1, e2, e3⟩ := blk_facts ⟨(i 0).val / 16384, ht⟩
  intro a
  match a with
  | ⟨0, _⟩ =>
    show win0_3.index ⟨(i 0).val / 16384, ht⟩ (0 : Fin 2) * 16384 ≤ (i 0).val
      ∧ (i 0).val < win0_3.index ⟨(i 0).val / 16384, ht⟩ (0 : Fin 2) * 16384
          + win0_3.xsize (grid0.coords ⟨(i 0).val / 16384, ht⟩) (0 : Fin 2)
    rw [e0, e2]
    dsimp only
    omega
  | ⟨1, _⟩ =>
    show win0_3.index ⟨(i 0).val / 16384, ht⟩ (1 : Fin 2) * 128 ≤ (i 1).val
      ∧ (i 1).val < win0_3.index ⟨(i 0).val / 16384, ht⟩ (1 : Fin 2) * 128
          + win0_3.xsize (grid0.coords ⟨(i 0).val / 16384, ht⟩) (1 : Fin 2)
    rw [e1, e3]
    omega

/-- The result array after the run is `Gm`. -/
theorem final (c : Dev nD) : (dats m (o3 m) 0 c).arrAt 3 cfg0.N = Gm m c :=
  (dats m (o3 m) 0 c).arrAt_eq_of_cover 3 (Gm m c) (fun t _ => flushed_eq m c t) cover

/-- The run, read: from any memory with zero counters every weakly fair execution of the program terminates with
    the result array at the clamped-row sum of the argument arrays and the argument arrays unchanged. -/
theorem run : θ_run defs (onTc (τ := τ) (main (F := Ideal))) ⟨m, fun _ => 0, ρ⟩ fun r => ∀ c : Dev nD,
      r.2.mem ((c.tc : Thread nD τ).loc main_v0) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans (final m c),
      ((h c).1 1).trans (((dats m (o3 m) 0 c).arrAt_in 1 rfl _).trans ((A_eq m (o3 m) c 1).trans (V_main_arg0 m c))),
      ((h c).1 2).trans (((dats m (o3 m) 0 c).arrAt_in 2 rfl _).trans ((A_eq m (o3 m) c 2).trans (V_main_arg1 m c))),
      ((h c).1 0).trans (((dats m (o3 m) 0 c).arrAt_in 0 rfl _).trans ((A_eq m (o3 m) c 0).trans (V_main_arg2 m c)))⟩)
    (run_val m ρ (o3 m) (hrow m))

end Cert.KernelIdeal.KValue

end
-- ==== Proof.RefValue.lean ====
/-
  The reference program's result, read index by index, is the clamped-row sum.

  The reference takes an array x of 1000000 rows and 128 columns, a table g of 8 rows and 128 columns, and one
  32-bit word per row of x. It replaces a negative word w by w + 8 (a select on the compare "w < 0"), writes the
  words as a column of 1000000 start indices, gathers one table row per start index, and adds the gathered rows
  to x.

  Two facts give its value at the entry (n, q).

  * The gather. Its slices are one table row each (slice sizes 1 and 128, the row axis collapsed, the column axis
    the result's offset axis), and the start index names the row axis only. So entry (n, q) of the gathered array
    is the table at row min(s, 7) and column q, where s is start index n read as a signed integer with everything
    below 0 taken to 0: the start is cut off so that the one-row slice stays inside the 8 rows, and on the column
    axis the start is 0, the slice the whole row, and the offset q.

  * The words. Under the hypothesis that every word is at least 0, the compare "w < 0" is the bit 0 everywhere,
    so the select returns the word itself and start index n is word n.

  Hence entry (n, q) of the result is x(n, q) + g(min(word n, 7), q), with the word read signed and cut off at 0
  below: the function G.
-/
import proofs.«427431_j27762668601803_3_alg».proof.Proof.Gen.ReferenceIdeal.Run
import proofs.«427431_j27762668601803_3_alg».proof.Proof.Gen.ReferenceIdeal.Read
import proofs.«427431_j27762668601803_3_alg».proof.Proof.GatherSum
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The gather's dimension numbers: operand 8 × 128, start indices 1000000 × 1, result 1000000 × 128. -/
abbrev gd : GatherDims S8x128 S1000000x1 S1000000x128 := gather_S8x128_S1000000x1_S1000000x128_1_0_n_n_0_1_1128

/-- The start-indices index (n, 0) that result index (n, q) reads its row from. -/
abbrev startAt (j : S1000000x128.Idx) : S1000000x1.Idx := ix2 (j 0) (0 : Fin 1)

/-- THE GATHER READ AT (n, q): the operand at row min(s, 7), s the start index at (n, 0) read signed with the
    negatives taken to 0, and at column q. On the row axis the operand coordinate is the clamped start alone
    (no batching axis, and a collapsed axis carries no offset); on the column axis it is the offset alone (the
    start index does not name that axis, so its start is 0). -/
theorem gather_apply {α : Type} {w : Nat} (x : S8x128.Idx → α) (idx : IVec S1000000x1 w) (j : S1000000x128.Idx) :
    Host.gather gd x idx j = x (ix2 ⟨min (idx (startAt j)).toInt.toNat 7, by omega⟩ (j 1)) := by
  unfold Host.gather
  congr 1
  funext a
  refine Fin.ext ?_
  match a with
  | ⟨0, _⟩ =>
    show gd.start j idx 0 + gd.batchCoord j 0 + gd.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    -- the one component of the start index is read at (n, 0)
    have hsi : gd.siIdx j ⟨List.idxOf (0 : Fin 2) gd.startIndexMap,
        List.idxOf_lt_length_iff.2 (List.mem_singleton.mpr rfl)⟩ = startAt j := by
      funext b; refine Fin.ext ?_
      match b with
      | ⟨0, _⟩ => rfl
      | ⟨1, _⟩ => rfl
    rw [hsi]
    rfl
  | ⟨1, _⟩ =>
    show gd.start j idx 1 + gd.batchCoord j 1 + gd.offCoord j 1 = _
    rw [GatherDims.batchCoord_eq_zero _ _ _ List.not_mem_nil]
    have h1 : (1 : Fin 2) ∉ gd.startIndexMap := by decide
    have hs : gd.start j idx 1 = 0 := by unfold GatherDims.start; rw [dif_neg h1]
    rw [hs]
    have hk : (1 : Fin 2) ∈ gd.sKept := by decide
    unfold GatherDims.offCoord
    rw [dif_pos hk]
    simp only [Nat.add_zero, Nat.zero_add]
    rfl

/-- With every word at least 0, the column of start indices holds the words themselves: the compare "word < 0"
    is the bit 0, so the select returns its third operand, the word, and never the word plus 8. -/
theorem word_eq {F : FTy → Type} [FloatOps F] (x2 : IVec S1000000 32) (h : ∀ n, 0 ≤ (x2 n).toInt) (j : S1000000x1.Idx) :
    val_main_v5 (F := F) x2 j = x2 (idx_main_v5 j) := by
  rw [val_main_v5_apply, val_main_v4_apply, val_main_v1_apply, val_main_v0_apply, val_main_c_apply]
  have hb : IntOp.cmpi .slt (x2 (idx_main_v5 j)) 0#32 = 0#1 := by
    apply eq_zero_of_ne_one
    rw [IntOp.cmpi_slt, show (0#32 : BitVec 32).toInt = 0 from by decide]
    have := h (idx_main_v5 j)
    omega
  rw [hb, select_zero]

/-- Entry (n, 0) of the column of start indices is read from word n. -/
theorem idx_startAt (i : S1000000x128.Idx) : idx_main_v5 (startAt i) = ix1 (n := 1000000) (i 0) := by
  funext a
  match a with
  | ⟨0, _⟩ => rfl

/-- THE REFERENCE'S VALUE: when no word is negative, the reference's result is G, entry by entry
    x(n, q) + g(rowOf(word n), q). -/
theorem result_eq (x0 : FVec Ideal S1000000x128 .f32) (x1 : FVec Ideal S8x128 .f32) (x2 : IVec S1000000 32)
    (h : ∀ n, 0 ≤ (x2 n).toInt) :
    Cert.ReferenceIdeal.Read.val_main_v7 (F := Ideal) x0 x1 x2 = Cert.GatherSum.G x0 x1 x2 := by
  funext i
  rw [val_main_v7_apply]
  unfold val_main_v6
  rw [gather_apply]
  simp only [word_eq x2 h, idx_startAt]
  rfl

end Cert.ReferenceIdeal.RefValue

end
-- ==== Proof.PreRange.lean ====
/-
  What the precondition says of the index words: none is negative.

  The precondition is the conjunction of three statements, each an "and" over all entries of an array of bits:
  every entry of the first array is finite, every entry of the table is finite, and every index word w satisfies
  w ≥ 0 as a signed comparison with the constant 0 spread over the 1000000 positions. The whole is one bit, and
  it is assumed to be 1.

  A conjunction of two bits is 1 only if both are, so the third statement's bit is 1. An "and" over all entries
  that starts from 1 and comes out 1 met a 1 at every entry, so at every position n the bit of the comparison
  "word n ≥ 0" is 1. A signed comparison w ≥ c with bit 1 says c ≤ w as integers, and the constant spread over
  the positions is 0 at each of them: 0 ≤ word n.
-/
import proofs.«427431_j27762668601803_3_alg».proof.Pre_finite_inputs
import proofs.«427431_j27762668601803_3_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs Cert.Pre_finite_inputs.Gen

/-- The shape with no axis has exactly one index. -/
instance : Subsingleton S_.Idx := ⟨fun a b => funext fun d => d.elim0⟩

/-- From the precondition's bit being 1: every index word, read signed, is at least 0. Nothing here depends on
    how floating-point values are represented. -/
theorem idx_nonneg {F : FTy → Type} [FloatOps F] (a0 : FVec F Cert.Pre_finite_inputs.S1000000x128 .f32)
    (a1 : FVec F Cert.Pre_finite_inputs.S8x128 .f32) (a2 : IVec Cert.Pre_finite_inputs.S1000000 32)
    (h : Cert.Pre_finite_inputs.fn (F := F) a0 a1 a2 = fun _ => 1#1) : ∀ n, 0 ≤ (a2 n).toInt := by
  intro n
  -- the one bit of the precondition
  have h0 := congrFun h ix0
  dsimp only [fn] at h0
  -- the second half of the outer conjunction: the "and" over all positions of the comparison's bits
  have h1 := (IntOp.andi_eq_one.1 h0).2
  -- hence the comparison's bit at position n
  have h2 := Host.reduce_andi_all _ _ _ _ _ h1 n
  -- read signed: the constant at position n, which is 0, is at most word n
  exact IntOp.cmpi_sge.1 h2

end Cert.PreRange

end
-- ==== Proof.lean ====
/-
  The kernel adds to each of the 1000000 rows of an array the row of an 8-row table that the row's index word
  selects, and so does the reference; this is the proof that they agree.

  The kernel works on blocks of 16384 rows, 62 of them, the last one reaching past the array's end: the rows of
  that block past the end hold words nothing names, and only the rows inside the array are written back. Within a
  block it works on four chunks of 4096 rows. For a chunk it clamps the index words to [0, 7], compares them
  with the column numbers 0..7 to get a matrix with one 1 per row, multiplies that matrix with the table, and adds
  the chunk of the input. Read as exact extended reals, the product picks the selected table row (0 * y = 0 and
  1 * y = y for every extended real y), so row n of the result is row n of the input plus the table row
  min(max(w, 0), 7) for its signed index word w, in that order of the two summands.

  The reference replaces a negative word w by w + 8, gathers the table row at that start index (the gather cuts
  the start index off into the table: again min(max(., 0), 7)), and adds it to the input row, input first. The
  two differ exactly at the words from -7 to -1, where the reference wraps around and the kernel clamps. The
  precondition therefore says, beside the finiteness of the float inputs, that no index word is negative; then
  the reference's select keeps the word, and both programs compute the same function (Proof/GatherSum.lean).
  Finiteness is not used: no step of the argument distributes, cancels or reorders.

  The parts: the step of the kernel on its staging buffers and the run of its pipeline, for the word-level
  program and for its exact-real reading (Proof/BodyKernel.lean, Proof/BodyKernelIdeal.lean: the frames); one
  chunk's value at an entry (Proof/ChunkValue.lean, over Proof/LibPlainDot.lean) and the result array after the
  run (Proof/KernelValue.lean); the reference's value (Proof/RefValue.lean); what the precondition says of the
  index words (Proof/PreRange.lean). The word-level program's multiplication is not a function of single rows
  there, so its frame says nothing of the result array: it only needs the three inputs unchanged.
-/
import proofs.«427431_j27762668601803_3_alg».proof.Defs
import proofs.«427431_j27762668601803_3_alg».proof.Proof.BodyKernel
import proofs.«427431_j27762668601803_3_alg».proof.Proof.BodyKernelIdeal
import proofs.«427431_j27762668601803_3_alg».proof.Proof.KernelValue
import proofs.«427431_j27762668601803_3_alg».proof.Proof.RefValue
import proofs.«427431_j27762668601803_3_alg».proof.Proof.PreRange
import proofs.«427431_j27762668601803_3_alg».proof.Proof.Gen.ReferenceIdeal
import proofs.«427431_j27762668601803_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its inputs unchanged. -/
theorem frame_k : Cert.frame_Kernel := fun m ρ _ => Cert.Kernel.Body.frame m ρ

/-- So does its exact-real reading. -/
theorem frame_ki : Cert.frame_KernelIdeal := fun m ρ _ => Cert.KernelIdeal.Body.frame m ρ

/-- The reference is ten host operations in a row: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact-real reading rewrites nothing of the kernel's text. -/
theorem preserves : Cert.preserves_Kernel_KernelIdeal := trivial

/-- Both programs end with the result array at the clamped-row sum of the (agreeing) argument arrays: the kernel's
    by the run of its pipeline, the reference's by its run read index by index, no index word being negative. -/
theorem algebraic : Cert.algebraic_KernelIdeal_ReferenceIdeal := by
  intro m ρ m' ρ' hpre hagree
  refine ⟨fun c => Cert.KernelIdeal.KValue.Gm m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hnn := Cert.PreRange.idx_nonneg _ _ _ (hpre c)
  rw [(hagree c).1, (hagree c).2.1, (hagree c).2.2, Cert.ReferenceIdeal.Read.val_main_v7_eq,
    Cert.ReferenceIdeal.RefValue.result_eq _ _ _ hnn]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
